-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S2x2048x32000 : Shape := ⟨3, ![2, 2048, 32000]⟩
abbrev S32000x2048 : Shape := ⟨2, ![32000, 2048]⟩
abbrev S1 : Shape := ⟨1, ![1]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S32000x2048 : S_.BroadcastsInDim S32000x2048 (![] : Fin 0 → Fin S32000x2048.rank)
  reducesTo_S32000x2048_S_d0_1 : S32000x2048.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S2x2048x2048 .f32) (main_arg1 : IVec S2x2048x32000 1) (main_arg2 : FVec F S32000x2048 .f32) (main_arg3 : FVec F S32000x2048 .f32) (main_arg4 : FVec F S1 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S32000x2048 .f32 := Host.absf main_arg2
  let main_cst_0 : FVec F S_ .f32 := constant S_ .f32 0x7F800000#32
  let main_v5 : FVec F S32000x2048 .f32 := broadcastInDim S32000x2048 ![] bcast_S_S32000x2048 main_cst_0
  let main_v6 : IVec S32000x2048 1 := cmpf .olt main_v4 main_v5
  let main_c_1 : IVec S_ 1 := constantI S_ 1 1#1
  let main_v7 : IVec S_ 1 := (fun x v => Host.reduce IntOp.andi x v reducesTo_S32000x2048_S_d0_1 h_S_) main_v6 main_c_1
  let main_v8 : IVec S_ 1 := andi main_v3 main_v7
  let main_v9 : FVec F S32000x2048 .f32 := Host.absf main_arg3
  let main_cst_2 : FVec F S_ .f32 := constant S_ .f32 0x7F800000#32
  let main_v10 : FVec F S32000x2048 .f32 := broadcastInDim S32000x2048 ![] bcast_S_S32000x2048 main_cst_2
  let main_v11 : IVec S32000x2048 1 := cmpf .olt main_v9 main_v10
  let main_c_3 : IVec S_ 1 := constantI S_ 1 1#1
  let main_v12 : IVec S_ 1 := (fun x v => Host.reduce IntOp.andi x v reducesTo_S32000x2048_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S2x2048x2048 : Shape := ⟨3, ![2, 2048, 2048]⟩
abbrev S2x2048x32000 : Shape := ⟨3, ![2, 2048, 32000]⟩
abbrev S32000x2048 : Shape := ⟨2, ![32000, 2048]⟩
abbrev S1 : Shape := ⟨1, ![1]⟩
abbrev S1x1024x2048 : Shape := ⟨3, ![1, 1024, 2048]⟩
abbrev S1x1024x128 : Shape := ⟨3, ![1, 1024, 128]⟩
abbrev S128x2048 : Shape := ⟨2, ![128, 2048]⟩
abbrev S1024x2048 : Shape := ⟨2, ![1024, 2048]⟩
abbrev S2048x128 : Shape := ⟨2, ![2048, 128]⟩
abbrev S1024x128 : Shape := ⟨2, ![1024, 128]⟩

abbrev nBuf : Space → Nat
  | .hbm => 7
  | .vmem => 11
  | .smem => 0
  | _ => 0

abbrev bufTy : (tb : Table) → Fin (tcTables nBuf tb) → BufTy
  | .hbm, ⟨0, _⟩ => ⟨S2x2048x2048, .f32⟩
  | .hbm, ⟨1, _⟩ => ⟨S2x2048x32000, .i1⟩
  | .hbm, ⟨2, _⟩ => ⟨S32000x2048, .f32⟩
  | .hbm, ⟨3, _⟩ => ⟨S32000x2048, .f32⟩
  | .hbm, ⟨4, _⟩ => ⟨S1, .f32⟩
  | .hbm, ⟨5, _⟩ => ⟨S2x2048x32000, .i32⟩
  | .hbm, ⟨6, _⟩ => ⟨S2x2048x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1024x128, .i32⟩
  | .local _ .vmem, ⟨3, _⟩ => ⟨S1x1024x128, .i32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S1, .f32⟩
  | .local _ .vmem, ⟨9, _⟩ => ⟨S1x1024x2048, .f32⟩
  | .local _ .vmem, ⟨10, _⟩ => ⟨S1x1024x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 2, 250], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  natLt_1_32 : 1 < 32
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  inb_S128x2048_S128x2048_0_0 : ∀ a, (![0, 0] : Fin 2 → Nat) a + S128x2048.size a ≤ S128x2048.size a
  h_S128x2048 : 0 < S128x2048.numel
  bitsLt_bf16_f32 : FTy.bits .bf16 < FTy.bits .f32
  transposes_S128x2048_p1_0_S2048x128 : S128x2048.Transposes [1, 0] S2048x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1_S1_0 : ∀ a, (![0] : Fin 1 → Nat) a + S1.size a ≤ S1.size a
  h_S1 : 0 < S1.numel
  inpos_S1_p0 : ∀ a, (![0] : Fin 1 → Nat) a < S1.size a
  dot_S1024x2048_S2048x128_S1024x128_1_0_0_1_n_n_wf : DotDims.WF S1024x2048 S2048x128 S1024x128 [1] [0] [0] [1] [] []
  dot_S1024x128_S128x2048_S1024x2048_1_0_0_1_n_n_wf : DotDims.WF S1024x128 S128x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S2x2048x2048.size a
  hwx0_0 : ∀ i : grid0.Coords, EltTy.bits .f32 = 32 ∨ (Rect.block (s := S2x2048x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S2x2048x32000.size a
  hwx0_1 : ∀ i : grid0.Coords, EltTy.bits .i32 = 32 ∨ (Rect.block (s := S2x2048x32000) S1x1024x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S32000x2048.size a
  hwx0_2 : ∀ i : grid0.Coords, EltTy.bits .f32 = 32 ∨ (Rect.block (s := S32000x2048) S128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S32000x2048.size a
  hwx0_3 : ∀ i : grid0.Coords, EltTy.bits .f32 = 32 ∨ (Rect.block (s := S32000x2048) S128x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x2048.size a ≤ S2x2048x2048.size a
  hwx0_5 : ∀ i : grid0.Coords, EltTy.bits .f32 = 32 ∨ (Rect.block (s := S2x2048x2048) S1x1024x2048.size (cc0_transform_5 i) (hinb0_5 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf

abbrev win0_0 : Pipeline.Window sig grid0 :=
  Pipeline.Window.ofSpec (Memref.whole main_arg0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x2048x2048 : Shape := ⟨3, ![2, 2048, 2048]⟩
abbrev S2x2048x32000 : Shape := ⟨3, ![2, 2048, 32000]⟩
abbrev S32000x2048 : Shape := ⟨2, ![32000, 2048]⟩
abbrev S1 : Shape := ⟨1, ![1]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x2048x32000, .i1⟩
  | .hbm, ⟨2, _⟩ => ⟨S32000x2048, .f32⟩
  | .hbm, ⟨3, _⟩ => ⟨S32000x2048, .f32⟩
  | .hbm, ⟨4, _⟩ => ⟨S1, .f32⟩
  | .hbm, ⟨5, _⟩ => ⟨S2x2048x32000, .f32⟩
  | .hbm, ⟨6, _⟩ => ⟨S_, .f32⟩
  | .hbm, ⟨7, _⟩ => ⟨S_, .f32⟩
  | .hbm, ⟨8, _⟩ => ⟨S2x2048x32000, .f32⟩
  | .hbm, ⟨9, _⟩ => ⟨S2x2048x32000, .f32⟩
  | .hbm, ⟨10, _⟩ => ⟨S2x2048x32000, .f32⟩
  | .hbm, ⟨11, _⟩ => ⟨S2x2048x32000, .f32⟩
  | .hbm, ⟨12, _⟩ => ⟨S2x2048x2048, .f32⟩
  | .hbm, ⟨13, _⟩ => ⟨S_, .f32⟩
  | .hbm, ⟨14, _⟩ => ⟨S2x2048x2048, .f32⟩
  | .hbm, ⟨15, _⟩ => ⟨S2x2048x2048, .f32⟩
  | .hbm, ⟨16, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩

abbrev nD : Nat := 1
abbrev τ : Topo := Topo.v7x

variable {F : FTy → Type} [FloatOps F]

class Facts₀ : Prop where
  bcast_S_S2x2048x32000 : S_.BroadcastsInDim S2x2048x32000 (![] : Fin 0 → Fin S2x2048x32000.rank)
  shapeCasts_S1_S_ : S1.ShapeCasts S_
  bcast_S_S2x2048x2048 : S_.BroadcastsInDim S2x2048x2048 (![] : Fin 0 → Fin S2x2048x2048.rank)
  dot_S2x2048x2048_S32000x2048_S2x2048x32000_2_1_01_0_n_n_wf : DotDims.WF S2x2048x2048 S32000x2048 S2x2048x32000 [2] [1] [0, 1] [0] [] []
  dot_S2x2048x32000_S32000x2048_S2x2048x2048_2_0_01_1_n_n_wf : DotDims.WF S2x2048x32000 S32000x2048 S2x2048x2048 [2] [0] [0, 1] [1] [] []

variable [Facts₀]

def dot_S2x2048x2048_S32000x2048_S2x2048x32000_2_1_01_0_n_n : DotDims S2x2048x2048 S32000x2048 S2x2048x32000 where
  lhsContracting := [2]
  rhsContracting := [1]
  lhsNonContracting := [0, 1]
  rhsNonContracting := [0]
  lhsBatch := []
  rhsBatch := []
  wf := dot_S2x2048x2048_S32000x2048_S2x2048x32000_2_1_01_0_n_n_wf
def dot_S2x2048x32000_S32000x2048_S2x2048x2048_2_0_01_1_n_n : DotDims S2x2048x32000 S32000x2048 S2x2048x2048 where
  lhsContracting := [2]
  rhsContracting := [0]
  lhsNonContracting := [0, 1]
  rhsNonContracting := [1]
  lhsBatch := []
  rhsBatch := []
  wf := dot_S2x2048x32000_S32000x2048_S2x2048x2048_2_0_01_1_n_n_wf

class Facts : Prop extends Facts₀ where

variable [Facts]
-- ==== Proof.Spec.lean ====
/-
  The mathematics both programs compute, stated once over the argument arrays as extended reals, with no program in sight.

  With X : [2, 2048, 2048] the hidden states, K : [2, 2048, 32000] the allowed-token bits, W1, W2 : [32000, 2048] the two
  projection matrices and B : [1] the block strength, the result at (b, s, h) is

      (∑ v < 32000, ((∑ k < 2048, X[b,s,k] · W1[v,k]) · scale K[b,s,v]) · W2[v,h]) · B[0] + X[b,s,h],

  where `scale` is 1 on a set bit and the f32 nearest 1e-4 on a clear one. The only law the bridge needs is that a sum
  over 32000 vocabulary entries is the sum, block after block, of 250 sums over 128 entries (addition of extended reals
  is commutative and associative, so no finiteness is asked for). Also here: a plain [m,k]·[k,n] matrix-unit product
  into a zero accumulator, read at an entry, is the sum over the contracted coordinate.
-/
import Idealize.ShloMosaic.PureOps.Ideal
import Idealize.ShloMosaic.PureOps.Ideal.Laws
import Idealize.ShloMosaic.Lib.ValueIdx
import Idealize.ShloMosaic.Lib.StackMember

noncomputable section

namespace Cert.Bridge

open Idealize.ShloMosaic Idealize.ShloMosaic.ValueIdx

/-- The factor an allowed-token bit selects: 1 where the token is allowed, the f32 nearest 1e-4 where it is not. -/
def scale (b : BitVec 1) : EReal :=
  Scalar.select b (Ideal.ofBits .f32 0x3F800000#32) (Ideal.ofBits .f32 0x38D1B717#32)

section Result

variable (X : (⟨3, ![2, 2048, 2048]⟩ : Shape).Idx → EReal) (K : (⟨3, ![2, 2048, 32000]⟩ : Shape).Idx → BitVec 1)
  (W1 W2 : (⟨2, ![32000, 2048]⟩ : Shape).Idx → EReal) (B : (⟨1, ![1]⟩ : Shape).Idx → EReal)

/-- The scaled vocabulary-space activation of position (b, s) at token v. -/
def act (b : Fin 2) (s : Fin 2048) (v : Fin 32000) : EReal :=
  (∑ k : Fin 2048, X (ix3 b s k) * W1 (ix2 v k)) * scale (K (ix3 b s v))

/-- Token v's contribution to the output at (b, s, h). -/
def term (b : Fin 2) (s : Fin 2048) (h : Fin 2048) (v : Fin 32000) : EReal :=
  act X K W1 b s v * W2 (ix2 v h)

/-- The whole result: the contributions of all tokens, times the block strength, plus the residual. -/
def result : (⟨3, ![2, 2048, 2048]⟩ : Shape).Idx → EReal := fun i =>
  (∑ v : Fin 32000, term X K W1 W2 (i 0) (i 1) (i 2) v) * B (ix1 0) + X i

end Result

/-! ## The grid

The kernel walks a [2, 2, 250] grid in row-major order: point n = 500·b + 250·σ + j works on batch b, on the rows
1024·σ … 1024·σ + 1023 and on the tokens 128·j … 128·j + 127. The three maps below read those off any natural number
(the remainders keep them in range past the grid's end, where nothing reads them). -/

/-- The batch of point n. -/
abbrev batchOf (n : ℕ) : Fin 2 := ⟨n / 500 % 2, Nat.mod_lt _ (by decide)⟩
/-- The array row under row s of point n's row block. -/
abbrev rowOf (n : ℕ) (s : Fin 1024) : Fin 2048 :=
  ⟨1024 * (n / 250 % 2) + s.val, by have := Nat.mod_lt (n / 250) (show 0 < 2 by decide); have := s.isLt; omega⟩
/-- The token under entry u of point n's token block. -/
abbrev tokOf (n : ℕ) (u : Fin 128) : Fin 32000 :=
  ⟨128 * (n % 250) + u.val, by have := Nat.mod_lt n (show 0 < 250 by decide); have := u.isLt; omega⟩

/-- A one-bit word widened to 32 bits is non-zero exactly when the bit is set: comparing the widened word with zero
    gives the bit back. -/
theorem cmpi_ne_setWidth (b : BitVec 1) : IntOp.cmpi .ne (b.setWidth 32) 0#32 = b := by
  rcases BitVec.eq_zero_or_eq_one b with rfl | rfl <;> rfl

/-- A sum over 32000 entries is the sum over the 250 consecutive token blocks of a run of grid points, 128 entries
    each, counted from any multiple of 250. -/
theorem sum_blocks {β : Type*} [AddCommMonoid β] (f : Fin 32000 → β) (r : ℕ) :
    ∑ s ∈ Finset.range 250, ∑ u : Fin 128, f (tokOf (250 * r + s) u) = ∑ v : Fin 32000, f v := by
  rw [Finset.sum_range]
  have e : ∑ v : Fin 32000, f v = ∑ p : Fin 250 × Fin 128, f (finProdFinEquiv p) :=
    (Equiv.sum_comp (finProdFinEquiv (m := 250) (n := 128)) f).symm
  rw [e, Fintype.sum_prod_type]
  refine Finset.sum_congr rfl fun a _ => Finset.sum_congr rfl fun u _ => congrArg f (Fin.ext ?_)
  show 128 * ((250 * r + a.val) % 250) + u.val = u.val + 128 * a.val
  rw [Nat.mul_add_mod, Nat.mod_eq_of_lt a.isLt]; omega

/-- A plain [m,k]·[k,n] product of the matrix unit into a zero accumulator, read at entry (a, b) at the ideal values: the
    sum over the contracted coordinate of the products of the entries. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Ideal.dotGeneral_apply (DotDims.plain m k n) prec .single A B (ix2 a b)]
  exact StackMember.dotGeneral_plain_apply prec A B a b

end Cert.Bridge

end
-- ==== Proof.KernelBlocks.lean ====
/-
  The kernel's input blocks, read entry by entry off the argument arrays.

  Grid point n = 500·b + 250·σ + j of the [2, 2, 250] grid fetches rows 1024·σ … 1024·σ + 1023 of batch b of the
  hidden states and of the mask, and rows 128·j … 128·j + 127 (the point's tokens) of both projection matrices; the
  block strength is one word, the same at every point. The mask reaches the kernel widened: the one host operation
  before the call zero-extends each bit to a 32-bit word. So each block entry is an entry of an argument array at
  coordinates linear in the block's; the index maps' values are decided once over the thousand grid points.
-/
import proofs.«115243_j20280835572330_1_alg».proof.Proof.Gen.KernelIdeal.Value
import proofs.«115243_j20280835572330_1_alg».proof.Proof.Spec
import Idealize.ShloMosaic.Lib.StableHlo.Run

noncomputable section

namespace Cert.KernelIdeal.RefValue

open Cert.KernelIdeal Cert.KernelIdeal.Gen Idealize.ShloMosaic Idealize.ShloMosaic.TcCoe Idealize.SL.Sem Idealize.ShloMosaic.ValueIdx
open Cert.Bridge

variable (m : (ℓ : Loc nD τ sig) → Buf (Elt Ideal) ℓ)

abbrev hsArr (c : Dev nD) : S2x2048x2048.Idx → EReal := m ((c : Thread nD τ).loc main_arg0)
abbrev maskArr (c : Dev nD) : S2x2048x32000.Idx → BitVec 1 := m ((c : Thread nD τ).loc main_arg1)
abbrev w1Arr (c : Dev nD) : S32000x2048.Idx → EReal := m ((c : Thread nD τ).loc main_arg2)
abbrev w2Arr (c : Dev nD) : S32000x2048.Idx → EReal := m ((c : Thread nD τ).loc main_arg3)
abbrev bsArr (c : Dev nD) : S1.Idx → EReal := m ((c : Thread nD τ).loc main_arg4)

theorem idx0 : ∀ t : Fin cfg0.N, win0_0.index t (0 : Fin 3) = t.val / 500 % 2 ∧ win0_0.index t (1 : Fin 3) = t.val / 250 % 2
    ∧ win0_0.index t (2 : Fin 3) = 0 :=
  (by decide +kernel : ∀ t : Fin grid0.N, _)
theorem idx1 : ∀ t : Fin cfg0.N, win0_1.index t (0 : Fin 3) = t.val / 500 % 2 ∧ win0_1.index t (1 : Fin 3) = t.val / 250 % 2
    ∧ win0_1.index t (2 : Fin 3) = t.val % 250 :=
  (by decide +kernel : ∀ t : Fin grid0.N, _)
theorem idx2 : ∀ t : Fin cfg0.N, win0_2.index t (0 : Fin 2) = t.val % 250 ∧ win0_2.index t (1 : Fin 2) = 0 :=
  (by decide +kernel : ∀ t : Fin grid0.N, _)
theorem idx3 : ∀ t : Fin cfg0.N, win0_3.index t (0 : Fin 2) = t.val % 250 ∧ win0_3.index t (1 : Fin 2) = 0 :=
  (by decide +kernel : ∀ t : Fin grid0.N, _)
theorem idx4 : ∀ t : Fin cfg0.N, win0_4.index t (0 : Fin 1) = 0 :=
  (by decide +kernel : ∀ t : Fin grid0.N, _)

theorem V_main_v0 (c : Dev nD) :
    (V m c main_v0 : S2x2048x32000.Idx → BitVec 32) = extui 32 (maskArr m c) natLt_1_32 := by
  dsimp only [V, hostOps0]
  after_results

theorem read_hs (c : Dev nD) (n : ℕ) (hn : n < cfg0.N) (s : Fin 1024) (k : Fin 2048) :
    (iblk m c 0 ⟨n, hn⟩ : Vec Ideal S1x1024x2048 .f32) (ix3 (0 : Fin 1) s k) = hsArr m c (ix3 (batchOf n) (rowOf n s) k) := by
  obtain ⟨e0, e1, e2⟩ : win0_0.index ⟨n, hn⟩ (0 : Fin 3) = n / 500 % 2 ∧ win0_0.index ⟨n, hn⟩ (1 : Fin 3) = n / 250 % 2
      ∧ win0_0.index ⟨n, hn⟩ (2 : Fin 3) = 0 := idx0 ⟨n, hn⟩
  unfold iblk
  rw [View.read_apply]
  show V m c main_arg0 _ = _
  rw [V_main_arg0]
  refine congrArg _ (funext fun a => Fin.ext ?_)
  match a with
  | ⟨0, _⟩ => show win0_0.index ⟨n, hn⟩ (0 : Fin 3) * 1 + 1 * (0 : Fin 1).val = n / 500 % 2; rw [e0]; simp
  | ⟨1, _⟩ => show win0_0.index ⟨n, hn⟩ (1 : Fin 3) * 1024 + 1 * s.val = 1024 * (n / 250 % 2) + s.val; rw [e1]; omega
  | ⟨2, _⟩ => show win0_0.index ⟨n, hn⟩ (2 : Fin 3) * 2048 + 1 * k.val = k.val; rw [e2]; omega

theorem read_w1 (c : Dev nD) (n : ℕ) (hn : n < cfg0.N) (u : Fin 128) (k : Fin 2048) :
    (iblk m c 2 ⟨n, hn⟩ : Vec Ideal S128x2048 .f32) (ix2 u k) = w1Arr m c (ix2 (tokOf n u) k) := by
  obtain ⟨e0, e1⟩ : win0_2.index ⟨n, hn⟩ (0 : Fin 2) = n % 250 ∧ win0_2.index ⟨n, hn⟩ (1 : Fin 2) = 0 := idx2 ⟨n, hn⟩
  unfold iblk
  rw [View.read_apply]
  show V m c main_arg2 _ = _
  rw [V_main_arg2]
  refine congrArg _ (funext fun a => Fin.ext ?_)
  match a with
  | ⟨0, _⟩ => show win0_2.index ⟨n, hn⟩ (0 : Fin 2) * 128 + 1 * u.val = 128 * (n % 250) + u.val; rw [e0]; omega
  | ⟨1, _⟩ => show win0_2.index ⟨n, hn⟩ (1 : Fin 2) * 2048 + 1 * k.val = k.val; rw [e1]; omega

theorem read_w2 (c : Dev nD) (n : ℕ) (hn : n < cfg0.N) (u : Fin 128) (h : Fin 2048) :
    (iblk m c 3 ⟨n, hn⟩ : Vec Ideal S128x2048 .f32) (ix2 u h) = w2Arr m c (ix2 (tokOf n u) h) := by
  obtain ⟨e0, e1⟩ : win0_3.index ⟨n, hn⟩ (0 : Fin 2) = n % 250 ∧ win0_3.index ⟨n, hn⟩ (1 : Fin 2) = 0 := idx3 ⟨n, hn⟩
  unfold iblk
  rw [View.read_apply]
  show V m c main_arg3 _ = _
  rw [V_main_arg3]
  refine congrArg _ (funext fun a => Fin.ext ?_)
  match a with
  | ⟨0, _⟩ => show win0_3.index ⟨n, hn⟩ (0 : Fin 2) * 128 + 1 * u.val = 128 * (n % 250) + u.val; rw [e0]; omega
  | ⟨1, _⟩ => show win0_3.index ⟨n, hn⟩ (1 : Fin 2) * 2048 + 1 * h.val = h.val; rw [e1]; omega

theorem read_bs (c : Dev nD) (n : ℕ) (hn : n < cfg0.N) :
    (iblk m c 4 ⟨n, hn⟩ : Vec Ideal S1 .f32) (ix1 (0 : Fin 1)) = bsArr m c (ix1 (0 : Fin 1)) := by
  have e0 : win0_4.index ⟨n, hn⟩ (0 : Fin 1) = 0 := idx4 ⟨n, hn⟩
  unfold iblk
  rw [View.read_apply]
  show V m c main_arg4 _ = _
  rw [V_main_arg4]
  refine congrArg _ (funext fun a => Fin.ext ?_)
  match a with
  | ⟨0, _⟩ => show win0_4.index ⟨n, hn⟩ (0 : Fin 1) * 1 + 1 * (0 : Fin 1).val = (0 : Fin 1).val; rw [e0]; simp

theorem read_mask (c : Dev nD) (n : ℕ) (hn : n < cfg0.N) (s : Fin 1024) (u : Fin 128) :
    (iblk m c 1 ⟨n, hn⟩ : Vec Ideal S1x1024x128 .i32) (ix3 (0 : Fin 1) s u)
      = (maskArr m c (ix3 (batchOf n) (rowOf n s) (tokOf n u))).setWidth 32 := by
  obtain ⟨e0, e1, e2⟩ : win0_1.index ⟨n, hn⟩ (0 : Fin 3) = n / 500 % 2 ∧ win0_1.index ⟨n, hn⟩ (1 : Fin 3) = n / 250 % 2
      ∧ win0_1.index ⟨n, hn⟩ (2 : Fin 3) = n % 250 := idx1 ⟨n, hn⟩
  unfold iblk
  rw [View.read_apply]
  show (V m c main_v0 : S2x2048x32000.Idx → BitVec 32) _ = _
  rw [V_main_v0, extui_apply]
  refine congrArg (fun j => (maskArr m c j).setWidth 32) (funext fun a => Fin.ext ?_)
  match a with
  | ⟨0, _⟩ => show win0_1.index ⟨n, hn⟩ (0 : Fin 3) * 1 + 1 * (0 : Fin 1).val = n / 500 % 2; rw [e0]; simp
  | ⟨1, _⟩ => show win0_1.index ⟨n, hn⟩ (1 : Fin 3) * 1024 + 1 * s.val = 1024 * (n / 250 % 2) + s.val; rw [e1]; omega
  | ⟨2, _⟩ => show win0_1.index ⟨n, hn⟩ (2 : Fin 3) * 128 + 1 * u.val = 128 * (n % 250) + u.val; rw [e2]; omega

end Cert.KernelIdeal.RefValue

end
-- ==== Proof.KernelPay.lean ====
/-
  The kernel body's arithmetic, read one entry at a time at the ideal values.

  One grid point loads a [1024, 2048] block x of hidden states, a [128, 2048] block w₁ of the first projection, the
  [1024, 128] block of widened mask words and a [128, 2048] block w₂ of the second projection, and adds to the output
  block, at (s, h),

      ∑ u < 128, ((∑ k < 2048, x[s,k] · w₁[u,k]) · scale(word[s,u] ≠ 0)) · w₂[u,h]:

  the two matrix-unit products into zero accumulators are plain sums, the bf16 roundings and the transposition of w₁
  change no value, and the shape casts only add or drop the block's leading unit axis. The first point of a run starts
  from the zero block; the last one multiplies by the block strength and adds the residual block.
-/
import proofs.«115243_j20280835572330_1_alg».proof.Proof.Gen.KernelIdeal.Skeleton
import proofs.«115243_j20280835572330_1_alg».proof.Proof.Spec
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

/-- Both products contract the left operand's columns with the right operand's rows, with no batch axis. -/
theorem dot1_plain : dot_S1024x2048_S2048x128_S1024x128_1_0_0_1_n_n = DotDims.plain 1024 2048 128 := rfl
theorem dot2_plain : dot_S1024x128_S128x2048_S1024x2048_1_0_0_1_n_n = DotDims.plain 1024 128 2048 := rfl

/-- The accumulating store's value at (0, s, h): what the block held, plus this point's 128 tokens' contributions. -/
theorem pay4_apply (x0 : Vec Ideal S1x1024x2048 .f32) (x2 : Vec Ideal S128x2048 .f32) (x1 : Vec Ideal S1x1024x128 .i32)
    (x3 : Vec Ideal S128x2048 .f32) (acc : Vec Ideal S1x1024x2048 .f32) (s : Fin 1024) (h : Fin 2048) :
    k0_pay4 (F := Ideal) x0 x2 x1 x3 acc (ix3 (0 : Fin 1) s h)
      = acc (ix3 (0 : Fin 1) s h) + ∑ u : Fin 128,
          ((∑ k : Fin 2048, x0 (ix3 (0 : Fin 1) s k) * x2 (ix2 u k))
            * Scalar.select (IntOp.cmpi .ne (x1 (ix3 (0 : Fin 1) s u)) 0#32) (Ideal.ofBits .f32 0x3F800000#32) (Ideal.ofBits .f32 0x38D1B717#32))
          * x3 (ix2 u h) := by
  unfold k0_pay4 k0_pay3
  dsimp only
  rw [shapeCast_ab_1ab_apply, addf_apply, shapeCast_1ab_ab_apply, dot2_plain, Cert.Bridge.matmul_plain_zero_apply]
  congr 1
  refine Finset.sum_congr rfl fun u _ => ?_
  rw [truncf_apply, truncf_apply, mulf_apply, dot1_plain, Cert.Bridge.matmul_plain_zero_apply, select_apply]
  simp only [truncf_apply, shapeCast_1ab_ab_apply, broadcast_apply]
  -- the transposed first projection at (k, u) is its entry (u, k)
  have ht : ∀ k : Fin 2048, transpose S2048x128 [1, 0] (truncf (F := Ideal) FTy.bf16 x2 bitsLt_bf16_f32) transposes_S128x2048_p1_0_S2048x128 (ix2 k u)
      = x2 (ix2 u k) := fun k => transpose_ix2_apply (a := 128) (b := 2048) _ _ k u
  -- the mask test at (s, u) tests the block's word (0, s, u)
  have hc : cmpi CmpIPredicate.ne (shapeCast S1024x128 x1 shapeCasts_S1x1024x128_S1024x128) (constantI S1024x128 32 0#32) (ix2 s u)
      = IntOp.cmpi CmpIPredicate.ne (x1 (ix3 (0 : Fin 1) s u)) 0#32 := by
    show IntOp.cmpi CmpIPredicate.ne (shapeCast S1024x128 x1 shapeCasts_S1x1024x128_S1024x128 (ix2 s u)) _ = _
    rw [shapeCast_1ab_ab_apply]
    rfl
  simp only [ht, hc]
  rfl

/-- The residual the last point adds is the hidden-state block itself, its unit axis dropped. -/
theorem pay3_apply (v3 : Vec Ideal S1x1024x2048 .f32) (s : Fin 1024) (h : Fin 2048) :
    k0_pay3 (F := Ideal) v3 (ix2 s h) = v3 (ix3 (0 : Fin 1) s h) := by
  unfold k0_pay3
  exact shapeCast_1ab_ab_apply _ _ s h

/-- The block a run starts from is zero everywhere. -/
theorem pay2_apply (s : Fin 1024) (h : Fin 2048) : k0_pay2 (F := Ideal) (ix3 (0 : Fin 1) s h) = 0 := by
  unfold k0_pay2
  rw [shapeCast_ab_1ab_apply, broadcast_apply]
  exact Ideal.ofBits_zero_f32

/-- The last point's second store at (0, s, h): the accumulated entry times the block strength, plus the residual. -/
theorem pay1_apply (v4 : FVec Ideal S1024x2048 .f32) (v30 : Vec Ideal S1x1024x2048 .f32) (v32 : Vec Ideal S1 .f32)
    (s : Fin 1024) (h : Fin 2048) :
    k0_pay1 (F := Ideal) v4 v30 v32 (ix3 (0 : Fin 1) s h) = v30 (ix3 (0 : Fin 1) s h) * v32 (ix1 (0 : Fin 1)) + v4 (ix2 s h) := by
  unfold k0_pay1
  rw [shapeCast_ab_1ab_apply, addf_apply, mulf_apply, shapeCast_1ab_ab_apply, broadcast_apply]
  have he : extractAt ![0] v32 inpos_S1_p0 = v32 (ix1 (0 : Fin 1)) := by
    unfold extractAt
    exact congrArg v32 (funext fun a => match a with | ⟨0, _⟩ => rfl)
  rw [he]

end Cert.KernelIdeal.Pay

end
-- ==== Proof.KernelFold.lean ====
/-
  The kernel's result array is the specification's `result` of its argument arrays.

  The [2, 2, 250] grid is walked in 4 runs of 250 consecutive points, one run per [1024, 2048] output block. Within a
  run the output block is an accumulator: the first point stores zero and adds its contribution, each later point adds
  its own, and the last point also multiplies by the block strength and adds the hidden-state block. A point's
  contribution at (s, h) is the sum over its 128 tokens of the scaled activation times the second projection's entry,
  so the run's 250 contributions are the 250 consecutive blocks of the one sum over all 32000 tokens: the kernel's
  grouping of that sum and the reference's single sum agree because addition of extended reals is associative and
  commutative; nothing here needs the inputs to be finite.
-/
import proofs.«115243_j20280835572330_1_alg».proof.Proof.KernelBlocks
import proofs.«115243_j20280835572330_1_alg».proof.Proof.KernelPay

noncomputable section

namespace Cert.KernelIdeal.RefValue

open Cert.KernelIdeal Cert.KernelIdeal.Gen Idealize.ShloMosaic Idealize.ShloMosaic.TcCoe Idealize.SL.Sem Idealize.ShloMosaic.ValueIdx
open Cert.Bridge

variable (m : (ℓ : Loc nD τ sig) → Buf (Elt Ideal) ℓ)

/-- Every index of a [1, 1024, 2048] block is (0, s, h). -/
theorem blk_idx (y : S1x1024x2048.Idx) : y = ix3 (0 : Fin 1) (y 1) (y 2) :=
  funext fun a => match a with
    | ⟨0, _⟩ => Fin.ext (by have h : (y 0).val < 1 := (y 0).isLt; show (y 0).val = 0; omega)
    | ⟨1, _⟩ => rfl
    | ⟨2, _⟩ => rfl

/-- Point n's contribution to its output block at y: the terms of its 128 tokens. -/
def contrib (c : Dev nD) (n : ℕ) (y : S1x1024x2048.Idx) : EReal :=
  ∑ u : Fin 128, term (hsArr m c) (maskArr m c) (w1Arr m c) (w2Arr m c) (batchOf n) (rowOf n (y 1)) (y 2) (tokOf n u)

/-- One accumulating step at point n: what the block held, plus the point's contribution. -/
theorem step_add (c : Dev nD) (n : ℕ) (hn : n < cfg0.N) (acc : Vec Ideal S1x1024x2048 .f32) (y : S1x1024x2048.Idx) :
    k0_pay4 (F := Ideal) (iblk m c 0 ⟨n, hn⟩) (iblk m c 2 ⟨n, hn⟩) (iblk m c 1 ⟨n, hn⟩) (iblk m c 3 ⟨n, hn⟩) acc y
      = acc y + contrib m c n y := by
  obtain ⟨s, h, rfl⟩ : ∃ s h, y = ix3 (0 : Fin 1) s h := ⟨y 1, y 2, blk_idx y⟩
  refine (Pay.pay4_apply (iblk m c 0 ⟨n, hn⟩) (iblk m c 2 ⟨n, hn⟩) (iblk m c 1 ⟨n, hn⟩) (iblk m c 3 ⟨n, hn⟩) acc s h).trans ?_
  refine congrArg (acc (ix3 (0 : Fin 1) s h) + ·) ?_
  unfold contrib
  refine Finset.sum_congr rfl fun u _ => ?_
  unfold term act scale
  rw [read_mask m c n hn s u, read_w2 m c n hn u h, cmpi_ne_setWidth]
  refine congr (congrArg HMul.hMul (congr (congrArg HMul.hMul (Finset.sum_congr rfl fun k _ => ?_)) rfl)) rfl
  exact congr (congrArg HMul.hMul (read_hs m c n hn s k)) (read_w1 m c n hn u k)

/-- The last point of a run: the accumulated block plus the point's own contribution, times the block strength, plus
    the hidden-state block. -/
theorem step_last (c : Dev nD) (n : ℕ) (hn : n < cfg0.N) (acc : Vec Ideal S1x1024x2048 .f32) (y : S1x1024x2048.Idx) :
    k0_pay1 (F := Ideal) (k0_pay3 (iblk m c 0 ⟨n, hn⟩))
        (k0_pay4 (iblk m c 0 ⟨n, hn⟩) (iblk m c 2 ⟨n, hn⟩) (iblk m c 1 ⟨n, hn⟩) (iblk m c 3 ⟨n, hn⟩) acc) (iblk m c 4 ⟨n, hn⟩) y
      = (acc y + contrib m c n y) * bsArr m c (ix1 (0 : Fin 1)) + hsArr m c (ix3 (batchOf n) (rowOf n (y 1)) (y 2)) := by
  obtain ⟨s, h, rfl⟩ : ∃ s h, y = ix3 (0 : Fin 1) s h := ⟨y 1, y 2, blk_idx y⟩
  refine (Pay.pay1_apply (k0_pay3 (iblk m c 0 ⟨n, hn⟩))
    (k0_pay4 (iblk m c 0 ⟨n, hn⟩) (iblk m c 2 ⟨n, hn⟩) (iblk m c 1 ⟨n, hn⟩) (iblk m c 3 ⟨n, hn⟩) acc) (iblk m c 4 ⟨n, hn⟩) s h).trans ?_
  rw [Pay.pay3_apply (iblk m c 0 ⟨n, hn⟩) s h, step_add m c n hn acc (ix3 (0 : Fin 1) s h), read_bs m c n hn, read_hs m c n hn s h]

/-- At the last point of a run (n ≡ 249 mod 250) the step is the accumulation followed by the epilogue. -/
theorem step5_last (c : Dev nD) (n : ℕ) (hn : n < cfg0.N) (h9 : n % 250 = 249) (acc : Vec Ideal S1x1024x2048 .f32) :
    Value.step5 m c n hn acc = k0_pay1 (F := Ideal) (k0_pay3 (iblk m c 0 ⟨n, hn⟩))
        (k0_pay4 (iblk m c 0 ⟨n, hn⟩) (iblk m c 2 ⟨n, hn⟩) (iblk m c 1 ⟨n, hn⟩) (iblk m c 3 ⟨n, hn⟩) acc) (iblk m c 4 ⟨n, hn⟩) := by
  unfold Value.step5
  rw [if_neg (by omega), if_pos (by omega)]

/-- THE RUN's FOLD. The 250 points 250·r … 250·r + 249 leave in the output block, at y, the sum of their contributions
    times the block strength, plus the hidden state under y: the first point starts from zero, every later one adds its
    contribution, and the last one applies the epilogue. -/
theorem fold_eq (c : Dev nD) (r : ℕ) (hr : 250 * r + 249 < cfg0.N) (y : S1x1024x2048.Idx) :
    Pipeline.accAt (Value.reset5 m c) (Value.step5 m c) (250 * r) 249 hr y
      = (∑ t ∈ Finset.range 250, contrib m c (250 * r + t) y) * bsArr m c (ix1 (0 : Fin 1))
        + hsArr m c (ix3 (batchOf (250 * r + 249)) (rowOf (250 * r + 249) (y 1)) (y 2)) := by
  have hacc := Pipeline.accAt_add_apply (ι := S1x1024x2048.Idx) (β := EReal) (Value.reset5 m c) (Value.step5 m c)
    (fun _ => 0) (contrib m c) (250 * r) 248
    (fun h i => by
      unfold Value.reset5
      rw [step_add m c (250 * r) h _ i]
      refine congrArg (· + contrib m c (250 * r) i) ?_
      rw [blk_idx i]
      exact Pay.pay2_apply _ _)
    (fun n h acc i hb he => by
      unfold Value.step5
      rw [if_pos ⟨by omega, by omega⟩]
      exact step_add m c n h acc i)
    248 le_rfl
  have hsum : ∑ t ∈ Finset.range 250, contrib m c (250 * r + t) y
      = ∑ t ∈ Finset.range 249, contrib m c (250 * r + t) y + contrib m c (250 * r + 249) y :=
    Finset.sum_range_succ (fun t => contrib m c (250 * r + t) y) 249
  rw [Pipeline.accAt_succ, step5_last m c _ hr (by omega)]
  refine (step_last m c (250 * r + (248 + 1)) hr _ y).trans ?_
  rw [hacc, hsum]
  show ((0 : EReal) + ∑ t ∈ Finset.range 249, contrib m c (250 * r + t) y + contrib m c (250 * r + 249) y) * _ + _ = _
  rw [zero_add]

/-- THE KERNEL'S RESULT is the specification's `result` of its argument arrays: output entry (b, s, h) lies in the block of
    run r = 2·b + s / 1024, at row s % 1024; the run's 250 token blocks are all 32000 tokens. -/
theorem G5_eq (c : Dev nD) :
    Value.G5 m c = result (hsArr m c) (maskArr m c) (w1Arr m c) (w2Arr m c) (bsArr m c) := by
  funext i
  have hi0 : (i 0).val < 2 := (i 0).isLt
  have hi1 : (i 1).val < 2048 := (i 1).isLt
  have hi2 : (i 2).val < 2048 := (i 2).isLt
  have hN : cfg0.N = 1000 := N_0
  have hr : Value.run5Of i = 2 * (i 0).val + (i 1).val / 1024 := by
    show 2 * ((i 0).val / 1 - 0) + 1 * ((i 1).val / 1024 - 0) + 1 * ((i 2).val / 2048 - 0) = _
    have : (i 2).val / 2048 = 0 := by omega
    omega
  unfold Value.G5
  rw [dif_pos (by rw [hr, hN]; omega), fold_eq]
  unfold result
  refine congr (congrArg HAdd.hAdd (congrArg (· * bsArr m c (ix1 (0 : Fin 1))) ?_)) (congrArg (hsArr m c) ?_)
  · rw [← sum_blocks (term (hsArr m c) (maskArr m c) (w1Arr m c) (w2Arr m c) (i 0) (i 1) (i 2)) (Value.run5Of i)]
    refine Finset.sum_congr rfl fun t ht => ?_
    have ht' : t < 250 := Finset.mem_range.mp ht
    unfold contrib
    refine Finset.sum_congr rfl fun u _ => ?_
    have eb : batchOf (250 * Value.run5Of i + t) = (i 0 : Fin 2) :=
      Fin.ext (by show (250 * Value.run5Of i + t) / 500 % 2 = (i 0).val; rw [hr]; omega)
    have er : rowOf (250 * Value.run5Of i + t) (Value.loc5Of i 1) = (i 1 : Fin 2048) :=
      Fin.ext (by show 1024 * ((250 * Value.run5Of i + t) / 250 % 2) + (i 1).val % 1024 = (i 1).val; rw [hr]; omega)
    have eh : (Value.loc5Of i 2 : Fin 2048) = (i 2 : Fin 2048) := Fin.ext (by show (i 2).val % 2048 = (i 2).val; omega)
    rw [eb, er, eh]
  · refine funext fun a => Fin.ext ?_
    match a with
    | ⟨0, _⟩ => show (250 * Value.run5Of i + 249) / 500 % 2 = (i 0).val; rw [hr]; omega
    | ⟨1, _⟩ => show 1024 * ((250 * Value.run5Of i + 249) / 250 % 2) + (i 1).val % 1024 = (i 1).val; rw [hr]; omega
    | ⟨2, _⟩ => show (i 2).val % 2048 = (i 2).val; omega

end Cert.KernelIdeal.RefValue

end
-- ==== Proof.RefSpec.lean ====
/-
  The reference, read one entry at a time at the ideal values, is the specification's `result`.

  Its stages: the first einsum is, at (b, s, v), the sum over k of X[b,s,k] · W1[v,k]; `jnp.where` selects 1 or the f32
  nearest 1e-4 by the mask bit; the second einsum sums over all 32000 tokens v the scaled activation times W2[v,h];
  the block strength, reshaped to a scalar and broadcast, multiplies that sum and the hidden state is added. The
  index functions the stage lemmas name are the coordinate triples and pairs below.
-/
import proofs.«115243_j20280835572330_1_alg».proof.Proof.Gen.ReferenceIdeal.Read
import proofs.«115243_j20280835572330_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.Bridge

/-- The second product's operands at output index i and token v: the activation at (i₀, i₁, v), W2 at (v, i₂). -/
theorem lidx3_eq (i : S2x2048x2048.Idx) (v : Fin 32000) :
    lidx_main_v3 i v = ix3 (n0 := 2) (n1 := 2048) (n2 := 32000) (i 0) (i 1) v :=
  funext fun a => Fin.ext (by match a with | ⟨0, _⟩ => rfl | ⟨1, _⟩ => rfl | ⟨2, _⟩ => rfl)
theorem ridx3_eq (i : S2x2048x2048.Idx) (v : Fin 32000) :
    ridx_main_v3 i v = ix2 (n0 := 32000) (n1 := 2048) v (i 2) :=
  funext fun a => Fin.ext (by match a with | ⟨0, _⟩ => rfl | ⟨1, _⟩ => rfl)
/-- The first product's operands at (b, s, v) and column k: X at (b, s, k), W1 at (v, k). -/
theorem lidx0_eq (b : Fin 2) (s : Fin 2048) (v : Fin 32000) (k : Fin 2048) : lidx_main_v0 (ix3 b s v) k = ix3 b s k :=
  funext fun a => Fin.ext (by match a with | ⟨0, _⟩ => rfl | ⟨1, _⟩ => rfl | ⟨2, _⟩ => rfl)
theorem ridx0_eq (b : Fin 2) (s : Fin 2048) (v : Fin 32000) (k : Fin 2048) : ridx_main_v0 (ix3 b s v) k = ix2 v k :=
  funext fun a => Fin.ext (by match a with | ⟨0, _⟩ => rfl | ⟨1, _⟩ => rfl)

/-- The block strength reshaped to a scalar is its one entry. -/
theorem strength_eq (x4 : (⟨S1, .f32⟩ : BufTy).Contents (Elt Ideal)) (j : S_.Idx) :
    val_main_v4 (F := Ideal) x4 j = x4 (ix1 (0 : Fin 1)) := by
  unfold val_main_v4
  refine shapeCast_apply x4 shapeCasts_S1_S_ j (ix1 (0 : Fin 1)) ?_
  show (S1.rowMajor (ix1 (0 : Fin 1))).val = (S_.rowMajor j).val
  have h1 : (S1.rowMajor (ix1 (0 : Fin 1))).val < 1 := (S1.rowMajor (ix1 (0 : Fin 1))).isLt
  have h2 : (S_.rowMajor j).val < 1 := (S_.rowMajor j).isLt
  omega

/-- The reference's last stage is `result` of its arguments. -/
theorem ref_eq (x0 : (⟨S2x2048x2048, .f32⟩ : BufTy).Contents (Elt Ideal)) (x1 : (⟨S2x2048x32000, .i1⟩ : BufTy).Contents (Elt Ideal))
    (x2 x3 : (⟨S32000x2048, .f32⟩ : BufTy).Contents (Elt Ideal)) (x4 : (⟨S1, .f32⟩ : BufTy).Contents (Elt Ideal)) :
    val_main_v7 (F := Ideal) x0 x1 x2 x3 x4 = result x0 x1 x2 x3 x4 := by
  funext i
  rw [val_main_v7_apply]
  rw [val_main_v6_apply]
  rw [val_main_v3_apply]
  rw [val_main_v5_apply]
  rw [Ideal.addf_def, Ideal.mulf_def]
  unfold result
  refine congrArg (· + x0 i) ?_
  refine congr (congrArg HMul.hMul ?_) (strength_eq x4 _)
  refine Finset.sum_congr rfl fun v _ => ?_
  rw [lidx3_eq, ridx3_eq, val_main_v2_apply, val_main_v0_apply, val_main_v1_apply, val_main_call0_v0_apply, val_main_call0_v1_apply,
    val_main_cst_apply, val_main_cst_0_apply, Ideal.mulf_def]
  unfold term act scale
  refine congrArg (· * x3 (ix2 v (i 2))) (congr (congrArg HMul.hMul (Finset.sum_congr rfl fun k _ => ?_)) rfl)
  exact congr (congrArg HMul.hMul (congrArg x0 (lidx0_eq _ _ _ _))) (congrArg x2 (ridx0_eq _ _ _ _))

end Cert.ReferenceIdeal.RefValue

end
-- ==== Proof.lean ====
/-
  The certificate of the masked vocabulary-space block: a Pallas kernel that, for hidden states X [2, 2048, 2048], a
  boolean mask K [2, 2048, 32000], projections W1, W2 [32000, 2048] and a block strength B [1], computes

      out[b,s,h] = (∑ v, ((∑ k, X[b,s,k] · W1[v,k]) · scale K[b,s,v]) · W2[v,h]) · B[0] + X[b,s,h]

  (scale = 1 on allowed tokens, the f32 nearest 1e-4 on the others) by accumulating 250 token blocks of 128 in the
  output tile, against the jnp reference that takes the two einsums whole. Over the extended reals the two are the same
  function of the arguments: the kernel's value is read off its run's fold (KernelFold), the reference's off its
  stages (RefSpec), and both are `Cert.Bridge.result` (Spec). The idealization rewrote nothing, so `preserves` is
  trivial; the three frames are the generated frame and the two value runs with the result dropped.
-/
import proofs.«115243_j20280835572330_1_alg».proof.Defs
import proofs.«115243_j20280835572330_1_alg».proof.Proof.Gen.Kernel.Frame
import proofs.«115243_j20280835572330_1_alg».proof.Proof.Gen.KernelIdeal.Value
import proofs.«115243_j20280835572330_1_alg».proof.Proof.Gen.Pre_finite_inputs
import proofs.«115243_j20280835572330_1_alg».proof.Proof.Gen.ReferenceIdeal.Run
import proofs.«115243_j20280835572330_1_alg».proof.Proof.Gen.ReferenceIdeal.Read
import proofs.«115243_j20280835572330_1_alg».proof.Proof.KernelFold
import proofs.«115243_j20280835572330_1_alg».proof.Proof.RefSpec
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- Both programs end with `result` of the arguments: the kernel's run leaves its fold, which is `result` of its
    arrays; the reference's run leaves its last stage, which is `result` of its own; and the arrays agree. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v7_eq, Cert.ReferenceIdeal.RefValue.ref_eq, Cert.KernelIdeal.RefValue.G5_eq]
  simp only [hagree c]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
